-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1600000x48 : Shape := ⟨2, ![1600000, 48]⟩
abbrev S1600000 : Shape := ⟨1, ![1600000]⟩
abbrev S100000 : Shape := ⟨1, ![100000]⟩
abbrev S_ : Shape := ⟨0, ![]⟩

class Facts : Prop where
  bcast_S_S1600000x48 : S_.BroadcastsInDim S1600000x48 (![] : Fin 0 → Fin S1600000x48.rank)
  reducesTo_S1600000x48_S_d0_1 : S1600000x48.ReducesTo [0, 1] S_
  h_S_ : 0 < S_.numel
  bcast_S_S1600000 : S_.BroadcastsInDim S1600000 (![] : Fin 0 → Fin S1600000.rank)
  reducesTo_S1600000_S_d0 : S1600000.ReducesTo [0] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : FVec F S1600000x48 .f32) (main_arg1 : FVec F S1600000 .f32) (main_arg2 : IVec S100000 32) (main_arg3 : IVec S1600000 32) (main_arg4 : IVec S1600000 32) : IVec S_ 1 :=
  let main_v0 : FVec F S1600000x48 .f32 := Host.absf main_arg0
  let main_cst : FVec F S_ .f32 := constant S_ .f32 0x7F800000#32
  let main_v1 : FVec F S1600000x48 .f32 := broadcastInDim S1600000x48 ![] bcast_S_S1600000x48 main_cst
  let main_v2 : IVec S1600000x48 1 := cmpf .olt main_v0 main_v1
  let main_c : IVec S_ 1 := constantI S_ 1 1#1
  let main_v3 : IVec S_ 1 := (fun x v => Host.reduce IntOp.andi x v reducesTo_S1600000x48_S_d0_1 h_S_) main_v2 main_c
  let main_v4 : FVec F S1600000 .f32 := Host.absf main_arg1
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_c_2 : IVec S_ 32 := constantI S_ 32 0#32
  let main_v9 : IVec S1600000 32 := broadcastInDim S1600000 ![] bcast_S_S1600000 main_c_2
  let main_v10 : IVec S1600000 1 := cmpi .sge main_arg3 main_v9
  let main_c_3 : IVec S_ 1 := constantI S_ 1 1#1
  let main_v11 : IVec S_ 1 := (fun x v => Host.reduce IntOp.andi x v reducesTo_S1600000_S_d0 h_S_) main_v10 main_c_3
  let main_v12 : IVec S_ 1 := andi main_v8 main_v11
  let main_c_4 : IVec S_ 32 := constantI S_ 32 0#32
  let main_v13 : IVec S1600000 32 := broadcastInDim S1600000 ![] bcast_S_S1600000 main_c_4
  let main_v14 : IVec S1600000 1 := cmpi .sge main_arg4 main_v13
  let main_c_5 : IVec S_ 1 := constantI S_ 1 1#1
  let main_v15 : IVec S_ 1 := (fun x v => Host.reduce IntOp.andi x v reducesTo_S1600000_S_d0 h_S_) main_v14 main_c_5
  fn_part1 (F := F) main_v12 main_v15
-- ==== Kernel.lean ====
abbrev S1600000x48 : Shape := ⟨2, ![1600000, 48]⟩
abbrev S1600000 : Shape := ⟨1, ![1600000]⟩
abbrev S100000 : Shape := ⟨1, ![100000]⟩
abbrev S_ : Shape := ⟨0, ![]⟩
abbrev S1605632x48 : Shape := ⟨2, ![1605632, 48]⟩
abbrev S1605632 : Shape := ⟨1, ![1605632]⟩
abbrev S100352x48 : Shape := ⟨2, ![100352, 48]⟩
abbrev S8192x48 : Shape := ⟨2, ![8192, 48]⟩
abbrev S8192 : Shape := ⟨1, ![8192]⟩
abbrev S1024x48 : Shape := ⟨2, ![1024, 48]⟩
abbrev S8192x1 : Shape := ⟨2, ![8192, 1]⟩
abbrev S1x1024 : Shape := ⟨2, ![1, 1024]⟩
abbrev S8192x1024 : Shape := ⟨2, ![8192, 1024]⟩
abbrev S100000x48 : Shape := ⟨2, ![100000, 48]⟩

abbrev nBuf : Space → Nat
  | .hbm => 19
  | .vmem => 10
  | .smem => 0
  | _ => 0

abbrev bufTy : (tb : Table) → Fin (tcTables nBuf tb) → BufTy
  | .hbm, ⟨0, _⟩ => ⟨S1600000x48, .f32⟩
  | .hbm, ⟨1, _⟩ => ⟨S1600000, .f32⟩
  | .hbm, ⟨2, _⟩ => ⟨S100000, .i32⟩
  | .hbm, ⟨3, _⟩ => ⟨S1600000, .i32⟩
  | .hbm, ⟨4, _⟩ => ⟨S1600000, .i32⟩
  | .hbm, ⟨5, _⟩ => ⟨S_, .i32⟩
  | .hbm, ⟨6, _⟩ => ⟨S_, .f32⟩
  | .hbm, ⟨7, _⟩ => ⟨S1605632x48, .f32⟩
  | .hbm, ⟨8, _⟩ => ⟨S_, .i32⟩
  | .hbm, ⟨9, _⟩ => ⟨S_, .f32⟩
  | .hbm, ⟨10, _⟩ => ⟨S1605632, .f32⟩
  | .hbm, ⟨11, _⟩ => ⟨S_, .i32⟩
  | .hbm, ⟨12, _⟩ => ⟨S_, .i32⟩
  | .hbm, ⟨13, _⟩ => ⟨S1605632, .i32⟩
  | .hbm, ⟨14, _⟩ => ⟨S_, .i32⟩
  | .hbm, ⟨15, _⟩ => ⟨S_, .i32⟩
  | .hbm, ⟨16, _⟩ => ⟨S1605632, .i32⟩
  | .hbm, ⟨17, _⟩ => ⟨S100352x48, .f32⟩
  | .hbm, ⟨18, _⟩ => ⟨S100000x48, .f32⟩
  | .local _ .vmem, ⟨0, _⟩ => ⟨S8192x48, .f32⟩
  | .local _ .vmem, ⟨1, _⟩ => ⟨S8192x48, .f32⟩
  | .local _ .vmem, ⟨2, _⟩ => ⟨S8192, .f32⟩
  | .local _ .vmem, ⟨3, _⟩ => ⟨S8192, .f32⟩
  | .local _ .vmem, ⟨4, _⟩ => ⟨S8192, .i32⟩
  | .local _ .vmem, ⟨5, _⟩ => ⟨S8192, .i32⟩
  | .local _ .vmem, ⟨6, _⟩ => ⟨S8192, .i32⟩
  | .local _ .vmem, ⟨7, _⟩ => ⟨S8192, .i32⟩
  | .local _ .vmem, ⟨8, _⟩ => ⟨S1024x48, .f32⟩
  | .local _ .vmem, ⟨9, _⟩ => ⟨S1024x48, .f32⟩
  | _, _ => ⟨S1600000x48, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_c_0 : Ref sig .tc := ⟨.hbm, 8, rfl⟩
abbrev main_call1_v0 : Ref sig .tc := ⟨.hbm, 9, rfl⟩
abbrev main_v1 : Ref sig .tc := ⟨.hbm, 10, rfl⟩
abbrev main_c_1 : Ref sig .tc := ⟨.hbm, 11, rfl⟩
abbrev main_call2_v0 : Ref sig .tc := ⟨.hbm, 12, rfl⟩
abbrev main_v2 : Ref sig .tc := ⟨.hbm, 13, rfl⟩
abbrev main_c_2 : Ref sig .tc := ⟨.hbm, 14, rfl⟩
abbrev main_call3_v0 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![98, 196], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  ![arg1.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  ![arg1.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  ![arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S8192x48 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S8192 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S8192 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x48 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  pads_S1600000x48_S1605632x48_056320_000 : S1600000x48.Pads (![0, 0] : Fin 2 → Nat) ![5632, 0] ![0, 0] S1605632x48
  h_S_ : 0 < S_.numel
  pads_S1600000_S1605632_056320 : S1600000.Pads (![0] : Fin 1 → Nat) ![5632] ![0] S1605632
  inb_S1024x48_S1024x48_0_0 : ∀ a, (![0, 0] : Fin 2 → Nat) a + S1024x48.size a ≤ S1024x48.size a
  h_S1024x48 : 0 < S1024x48.numel
  inb_S8192x48_S8192x48_0_0 : ∀ a, (![0, 0] : Fin 2 → Nat) a + S8192x48.size a ≤ S8192x48.size a
  h_S8192x48 : 0 < S8192x48.numel
  shapeCasts_S8192x48_S8192x48 : S8192x48.ShapeCasts S8192x48
  inb_S8192_S8192_0 : ∀ a, (![0] : Fin 1 → Nat) a + S8192.size a ≤ S8192.size a
  h_S8192 : 0 < S8192.numel
  shapeCasts_S8192_S8192 : S8192.ShapeCasts S8192
  shapeCasts_S8192_S8192x1 : S8192.ShapeCasts S8192x1
  broadcasts_S8192x1_S8192x48 : S8192x1.Broadcasts S8192x48
  bitsLt_bf16_f32 : FTy.bits .bf16 < FTy.bits .f32
  iota_S1x1024_d1_w32 : S1x1024.Iotas .tc 32 [1]
  broadcasts_S8192x1_S8192x1024 : S8192x1.Broadcasts S8192x1024
  broadcasts_S1x1024_S8192x1024 : S1x1024.Broadcasts S8192x1024
  natLt_1_32 : 1 < 32
  shapeCasts_S1024x48_S1024x48 : S1024x48.ShapeCasts S1024x48
  slices_S100352x48_S100000x48_0_0 : S100352x48.Slices ![0, 0] S100000x48
  dot_S8192x1024_S8192x48_S1024x48_0_0_1_1_n_n_wf : DotDims.WF S8192x1024 S8192x48 S1024x48 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x48.size a ≤ S1605632x48.size a
  hwx0_0 : ∀ i : grid0.Coords, EltTy.bits .f32 = 32 ∨ (Rect.block (s := S1605632x48) S8192x48.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192.size a ≤ S1605632.size a
  hwx0_1 : ∀ i : grid0.Coords, EltTy.bits .f32 = 32 ∨ (Rect.block (s := S1605632) S8192.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8192.size a ≤ S1605632.size a
  hwx0_2 : ∀ i : grid0.Coords, EltTy.bits .i32 = 32 ∨ (Rect.block (s := S1605632) S8192.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8192.size a ≤ S1605632.size a
  hwx0_3 : ∀ i : grid0.Coords, EltTy.bits .i32 = 32 ∨ (Rect.block (s := S1605632) S8192.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x48.size a ≤ S100352x48.size a
  hwx0_4 : ∀ i : grid0.Coords, EltTy.bits .f32 = 32 ∨ (Rect.block (s := S100352x48) S1024x48.size (cc0_transform_4 i) (hinb0_4 i)).WholeWords (EltTy.packing .f32)

variable [Facts₀]

def dot_S8192x1024_S8192x48_S1024x48_0_0_1_1_n_n : DotDims S8192x1024 S8192x48 S1024x48 where
  lhsContracting := [0]
  rhsContracting := [0]
  lhsNonContracting := [1]
  rhsNonContracting := [1]
  lhsBatch := []
  rhsBatch := []
  wf := dot_S8192x1024_S8192x48_S1024x48_0_0_1_1_n_n_wf

abbrev win0_0 : Pipeline.Window sig grid0 :=
  Pipeline.Window.ofSpec (Memref.whole main_v0) S8192x48.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S8192.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S8192.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1024x48.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S1600000x48 : Shape := ⟨2, ![1600000, 48]⟩
abbrev S1600000 : Shape := ⟨1, ![1600000]⟩
abbrev S100000 : Shape := ⟨1, ![100000]⟩
abbrev S1600000x1 : Shape := ⟨2, ![1600000, 1]⟩
abbrev S_ : Shape := ⟨0, ![]⟩
abbrev S100000x48 : Shape := ⟨2, ![100000, 48]⟩

abbrev nBuf : Space → Nat
  | .hbm => 28
  | .vmem => 0
  | .smem => 0
  | _ => 0

abbrev bufTy : (tb : Table) → Fin (tcTables nBuf tb) → BufTy
  | .hbm, ⟨0, _⟩ => ⟨S1600000x48, .f32⟩
  | .hbm, ⟨1, _⟩ => ⟨S1600000, .f32⟩
  | .hbm, ⟨2, _⟩ => ⟨S100000, .i32⟩
  | .hbm, ⟨3, _⟩ => ⟨S1600000, .i32⟩
  | .hbm, ⟨4, _⟩ => ⟨S1600000, .i32⟩
  | .hbm, ⟨5, _⟩ => ⟨S1600000x1, .f32⟩
  | .hbm, ⟨6, _⟩ => ⟨S1600000x48, .f32⟩
  | .hbm, ⟨7, _⟩ => ⟨S1600000x48, .f32⟩
  | .hbm, ⟨8, _⟩ => ⟨S_, .f32⟩
  | .hbm, ⟨9, _⟩ => ⟨S100000x48, .f32⟩
  | .hbm, ⟨10, _⟩ => ⟨S_, .i32⟩
  | .hbm, ⟨11, _⟩ => ⟨S1600000, .i32⟩
  | .hbm, ⟨12, _⟩ => ⟨S1600000, .i1⟩
  | .hbm, ⟨13, _⟩ => ⟨S_, .i32⟩
  | .hbm, ⟨14, _⟩ => ⟨S1600000, .i32⟩
  | .hbm, ⟨15, _⟩ => ⟨S1600000, .i32⟩
  | .hbm, ⟨16, _⟩ => ⟨S1600000, .i32⟩
  | .hbm, ⟨17, _⟩ => ⟨S1600000x1, .i32⟩
  | .hbm, ⟨18, _⟩ => ⟨S100000x48, .f32⟩
  | .hbm, ⟨19, _⟩ => ⟨S_, .i32⟩
  | .hbm, ⟨20, _⟩ => ⟨S1600000, .i32⟩
  | .hbm, ⟨21, _⟩ => ⟨S1600000, .i1⟩
  | .hbm, ⟨22, _⟩ => ⟨S_, .i32⟩
  | .hbm, ⟨23, _⟩ => ⟨S1600000, .i32⟩
  | .hbm, ⟨24, _⟩ => ⟨S1600000, .i32⟩
  | .hbm, ⟨25, _⟩ => ⟨S1600000, .i32⟩
  | .hbm, ⟨26, _⟩ => ⟨S1600000x1, .i32⟩
  | .hbm, ⟨27, _⟩ => ⟨S100000x48, .f32⟩
  | _, _ => ⟨S1600000x48, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c_1 : Ref sig .tc := ⟨.hbm, 19, rfl⟩
abbrev main_v11 : Ref sig .tc := ⟨.hbm, 20, rfl⟩
abbrev main_v12 : Ref sig .tc := ⟨.hbm, 21, rfl⟩
abbrev main_c_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩

abbrev nD : Nat := 1
abbrev τ : Topo := Topo.v7x

variable {F : FTy → Type} [FloatOps F]

class Facts₀ : Prop where
  bcast_S1600000_S1600000x1_0 : S1600000.BroadcastsInDim S1600000x1 (![0] : Fin 1 → Fin S1600000x1.rank)
  bcast_S1600000x1_S1600000x48_0_1 : S1600000x1.BroadcastsInDim S1600000x48 (![0, 1] : Fin 2 → Fin S1600000x48.rank)
  bcast_S_S100000x48 : S_.BroadcastsInDim S100000x48 (![] : Fin 0 → Fin S100000x48.rank)
  bcast_S_S1600000 : S_.BroadcastsInDim S1600000 (![] : Fin 0 → Fin S1600000.rank)
  scatter_S100000x48_S1600000x1_S1600000x48_1_0_0_1_wf : ScatterDims.WF S100000x48 S1600000x1 S1600000x48 [1] [0] [0] 1

variable [Facts₀]

def scatter_S100000x48_S1600000x1_S1600000x48_1_0_0_1 : ScatterDims S100000x48 S1600000x1 S1600000x48 where
  updateWindowDims := [1]
  insertedWindowDims := [0]
  scatterDimsToOperandDims := [0]
  indexVectorDim := 1
  wf := scatter_S100000x48_S1600000x1_S1600000x48_1_0_0_1_wf

class Facts : Prop extends Facts₀ where

variable [Facts]
-- ==== Proof.Spec.lean ====
/-
  The function both programs compute. Edge `e` carries the feature row `x[e, :]` scaled by `switch[e]`;
  node `n` receives that row once for each of the edge's two endpoints that is `n`:

      out[n, d] = ∑ₑ (⟦src e = n⟧ + ⟦dst e = n⟧) · (x[e, d] · switch[e])

  over the extended reals, the brackets being 0 or 1. An endpoint word is compared with the node's number as a
  32-bit word.
-/
import Idealize.ShloMosaic.PureOps.Ideal
import Idealize.ShloMosaic.Lib.ValueIdx

noncomputable section

namespace Cert.EdgeScatter

open Idealize.ShloMosaic Idealize.ShloMosaic.ValueIdx

/-- The one-hot coefficient: 1 when the endpoint word `a` is node `n`'s word, else 0. -/
def hot (a : BitVec 32) (n : ℕ) : EReal := if a = BitVec.ofNat 32 n then 1 else 0

theorem hot_nonneg (a : BitVec 32) (n : ℕ) : 0 ≤ hot a n := by
  unfold hot; split_ifs <;> norm_num

/-- What edge `e` contributes to feature `d` of node `n`. -/
def term (X : (⟨2, ![1600000, 48]⟩ : Shape).Idx → EReal) (SW : (⟨1, ![1600000]⟩ : Shape).Idx → EReal)
    (src dst : (⟨1, ![1600000]⟩ : Shape).Idx → BitVec 32) (n : ℕ) (d : Fin 48) (e : Fin 1600000) : EReal :=
  (hot (src (ix1 e)) n + hot (dst (ix1 e)) n) * (X (ix2 e d) * SW (ix1 e))

/-- The scatter-add of the switched edge features onto both endpoints, as one function of the arguments. -/
def scat (X : (⟨2, ![1600000, 48]⟩ : Shape).Idx → EReal) (SW : (⟨1, ![1600000]⟩ : Shape).Idx → EReal)
    (src dst : (⟨1, ![1600000]⟩ : Shape).Idx → BitVec 32) : (⟨2, ![100000, 48]⟩ : Shape).Idx → EReal :=
  fun i => ∑ e : Fin 1600000, term X SW src dst (i 0).val (i 1) e

theorem scat_apply (X : (⟨2, ![1600000, 48]⟩ : Shape).Idx → EReal) (SW : (⟨1, ![1600000]⟩ : Shape).Idx → EReal)
    (src dst : (⟨1, ![1600000]⟩ : Shape).Idx → BitVec 32) (n : Fin 100000) (d : Fin 48) :
    scat X SW src dst (ix2 n d) = ∑ e : Fin 1600000, term X SW src dst n.val d e := rfl

end Cert.EdgeScatter

end
-- ==== Proof.Payload.lean ====
/-
  The kernel body's two stored values, read at an index of the [1024, 48] output block, over the extended reals.
  The reset stores zero. The update stores, at row `r` and feature `d` of node block `i₀`, the block's previous
  contents plus the sum over the 8192 edges `k` of the edge block of
  (⟦src k = 1024·i₀ + r⟧ + ⟦dst k = 1024·i₀ + r⟧) · (x[k, d] · switch[k]):
  the matrix product of the transposed one-hot tile with the switched features, the changes of float format being
  the identity on extended reals.
-/
import proofs.«410101_j7971459302125_1_alg».proof.Proof.Gen.KernelIdeal.Skeleton
import proofs.«410101_j7971459302125_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Cert.KernelIdeal Cert.KernelIdeal.Gen Idealize.ShloMosaic Idealize.ShloMosaic.ValueIdx Cert.EdgeScatter

/-- The reset's value is zero at every index. -/
theorem pay1_apply (j : S1024x48.Idx) : (k0_pay1 (F := Ideal)) j = 0 := by
  unfold k0_pay1
  show Ideal.ofBits .f32 0x00000000#32 = 0
  exact Ideal.ofBits_zero_f32

section Layout
variable {α : Type}

/-- A vector of length `a` cast to a column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## The contraction's operand indices -/

theorem lhs_dot_0 (j : S1024x48.Idx) (k : dot_S8192x1024_S8192x48_S1024x48_0_0_1_1_n_n.contr.Idx) :
    (dot_S8192x1024_S8192x48_S1024x48_0_0_1_1_n_n.lhsIdx j k 0 : ℕ) = k ⟨0, by decide⟩ :=
  DotDims.lhsIdx_val_of_single dot_S8192x1024_S8192x48_S1024x48_0_0_1_1_n_n rfl j k

theorem rhs_dot_0 (j : S1024x48.Idx) (k : dot_S8192x1024_S8192x48_S1024x48_0_0_1_1_n_n.contr.Idx) :
    (dot_S8192x1024_S8192x48_S1024x48_0_0_1_1_n_n.rhsIdx j k 0 : ℕ) = k ⟨0, by decide⟩ :=
  DotDims.rhsIdx_val_of_single dot_S8192x1024_S8192x48_S1024x48_0_0_1_1_n_n rfl j k

theorem lhs_dot_1 (j : S1024x48.Idx) (k : dot_S8192x1024_S8192x48_S1024x48_0_0_1_1_n_n.contr.Idx) :
    (dot_S8192x1024_S8192x48_S1024x48_0_0_1_1_n_n.lhsIdx j k 1 : ℕ) = j 0 := by
  simp [DotDims.lhsIdx, dot_S8192x1024_S8192x48_S1024x48_0_0_1_1_n_n]; rfl

theorem rhs_dot_1 (j : S1024x48.Idx) (k : dot_S8192x1024_S8192x48_S1024x48_0_0_1_1_n_n.contr.Idx) :
    (dot_S8192x1024_S8192x48_S1024x48_0_0_1_1_n_n.rhsIdx j k 1 : ℕ) = j 1 := by
  simp [DotDims.rhsIdx, dot_S8192x1024_S8192x48_S1024x48_0_0_1_1_n_n]; rfl

/-! ## The matrix product read at an index -/

/-- The product into the zero accumulator, at row `r` and feature `d`: the sum over the 8192 contracted positions
    `k` of the left operand at `(k, r)` times the right operand at `(k, d)`. -/
theorem matmul_read (c : FVec Ideal S8192x1024 .bf16) (x : FVec Ideal S8192x48 .bf16) (r : Fin 1024) (d : Fin 48) :
    matmul dot_S8192x1024_S8192x48_S1024x48_0_0_1_1_n_n none c x (constant (F := Ideal) S1024x48 .f32 0x00000000#32) (ix2 r d)
      = ∑ k : Fin 8192, c (ix2 k r) * x (ix2 k d) := by
  refine (Ideal.matmul_constant_zero_apply dot_S8192x1024_S8192x48_S1024x48_0_0_1_1_n_n none c x (ix2 r d)).trans ?_
  rw [← Equiv.sum_comp (contrEquiv1 dot_S8192x1024_S8192x48_S1024x48_0_0_1_1_n_n 8192 rfl rfl).symm]
  refine Finset.sum_congr rfl fun k _ => ?_
  refine congrArg₂ (· * ·) (congrArg c ?_) (congrArg x ?_)
  · refine Shape.idx_ext₂ ?_ ?_
    · exact (lhs_dot_0 _ _).trans (contrEquiv1_symm_val _ _ _ _ k)
    · exact lhs_dot_1 _ _
  · refine Shape.idx_ext₂ ?_ ?_
    · exact (rhs_dot_0 _ _).trans (contrEquiv1_symm_val _ _ _ _ k)
    · exact rhs_dot_1 _ _

/-! ## The one-hot coefficient -/

/-- The node word: the block's first node plus the row, with no range condition. -/
theorem node_word (i0 r : ℕ) :
    IntOp.addi (Scalar.muli (BitVec.ofNat 32 i0) 1024#32) (BitVec.ofNat 32 r) = BitVec.ofNat 32 (1024 * i0 + r) := by
  show BitVec.ofNat 32 i0 * 1024#32 + BitVec.ofNat 32 r = BitVec.ofNat 32 (1024 * i0 + r)
  rw [Nat.mul_comm 1024 i0, BitVec.ofNat_add, BitVec.ofNat_mul]

/-- The comparison, widened and read as a float, is the indicator. -/
theorem coef_hot (a b : BitVec 32) (n : ℕ) (hb : b = BitVec.ofNat 32 n) :
    (FloatOps.sitofp (F := Ideal) .f32 ((IntOp.cmpi .eq a b).setWidth 32) : EReal) = hot a n := by
  subst hb
  unfold hot
  show ((((BitVec.ofBool (a == BitVec.ofNat 32 n)).setWidth 32).toInt : ℝ) : EReal) = _
  by_cases h : a = BitVec.ofNat 32 n
  · rw [if_pos h, beq_iff_eq.mpr h]; simp
  · rw [if_neg h, beq_eq_false_iff_ne.mpr h]; simp

/-! ## The update's value -/

/-- The one-hot tile at edge `k`, row `r`: the comparison of the edge's endpoint word, broadcast along the rows, with
    the node word, broadcast along the edges. -/
theorem tile_read (i0 : ℕ) (w : Vec Ideal S8192 .i32) (k : Fin 8192) (r : Fin 1024) :
    (sitofp (F := Ideal) .f32 (extui 32 (cmpi .eq
        (broadcastTo S8192x1024 (shapeCast S8192x1 (shapeCast S8192 w shapeCasts_S8192_S8192) shapeCasts_S8192_S8192x1)
          broadcasts_S8192x1_S8192x1024)
        (broadcastTo S8192x1024 (addi (broadcast S1x1024 (Scalar.muli (BitVec.ofNat 32 i0) 1024#32))
          (iota .tc S1x1024 32 [1] iota_S1x1024_d1_w32)) broadcasts_S1x1024_S8192x1024)) natLt_1_32) : FVec Ideal S8192x1024 .f32) (ix2 k r)
      = hot (w (ix1 k)) (1024 * i0 + r.val) := by
  refine (coef_hot _ _ (1024 * i0 + r.val) ?_).trans ?_
  · refine (broadcastTo_1b_ab_apply _ broadcasts_S1x1024_S8192x1024 k r).trans ?_
    show IntOp.addi (Scalar.muli (BitVec.ofNat 32 i0) 1024#32) (iota .tc S1x1024 32 [1] iota_S1x1024_d1_w32 (ix2 (0 : Fin 1) r)) = _
    rw [iota_single_apply]
    exact node_word i0 r.val
  · refine congrArg (fun a => hot a (1024 * i0 + r.val)) ?_
    refine (broadcastTo_a1_ab_apply _ broadcasts_S8192x1_S8192x1024 k r).trans ?_
    refine (shapeCast_a_a1_apply _ shapeCasts_S8192_S8192x1 k 0).trans ?_
    rw [shapeCast_self]

/-- The update's value at row `r`, feature `d`. -/
theorem pay2_apply (i : grid0.Coords) (v3 : Vec Ideal S8192x48 .f32) (v5 : Vec Ideal S8192 .f32)
    (v15 v18 : Vec Ideal S8192 .i32) (v35 : Vec Ideal S1024x48 .f32) (r : Fin 1024) (d : Fin 48) :
    k0_pay2 (F := Ideal) i v3 v5 v15 v18 v35 (ix2 r d)
      = v35 (ix2 r d) + ∑ k : Fin 8192,
          (hot (v15 (ix1 k)) (1024 * (i 0).val + r.val) + hot (v18 (ix1 k)) (1024 * (i 0).val + r.val))
            * (v3 (ix2 k d) * v5 (ix1 k)) := by
  unfold k0_pay2
  refine (addf_apply _ _ _).trans (congrArg₂ (· + ·) ?_ ?_)
  · rw [shapeCast_self]
  · refine (matmul_read _ _ r d).trans ?_
    refine Finset.sum_congr rfl fun k _ => ?_
    refine congrArg₂ (· * ·) ?_ ?_
    · refine (addf_apply _ _ _).trans (congrArg₂ (· + ·) ?_ ?_)
      · exact tile_read (i 0).val v15 k r
      · exact tile_read (i 0).val v18 k r
    · refine (truncf_apply (ψ := .bf16) _ bitsLt_bf16_f32 _).trans ((mulf_apply _ _ _).trans (congrArg₂ (· * ·) ?_ ?_))
      · rw [shapeCast_self]
      · refine (broadcastTo_a1_ab_apply _ broadcasts_S8192x1_S8192x48 k d).trans ?_
        refine (shapeCast_a_a1_apply _ shapeCasts_S8192_S8192x1 k 0).trans ?_
        rw [shapeCast_self]

end Cert.KernelIdeal.Pay

end
-- ==== Proof.Pieces.lean ====
/-
  What one run of the kernel body leaves in the output block's staging buffer, as a value.
  At the first edge block of a node block the body stores zero, reads it back and stores the update of it; at every
  later edge block it stores the update of what the point before left. Both are the update payload, applied to zero
  or to the carried contents, of the four input blocks.
-/
import proofs.«410101_j7971459302125_1_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.SL.Sem

variable {F : FTy → Type} [FloatOps F]

theorem hz2 : (![0, 0] : Fin 2 → Nat) = fun _ => 0 := funext fun a => by fin_cases a <;> rfl
theorem hz1 : (![0] : Fin 1 → Nat) = fun _ => 0 := funext fun a => by fin_cases a; rfl

/-- A later edge block: the carried contents `xo` updated by the point's input blocks. -/
theorem out_B (c : Dev nD) (i : grid0.Coords) (a2 : Memref sig .tc .vmem S8192x48 .f32) (h2 : a2.IsWhole)
    (a3 : Memref sig .tc .vmem S8192 .f32) (h3 : a3.IsWhole) (a4 : Memref sig .tc .vmem S8192 .i32) (h4 : a4.IsWhole)
    (a5 : Memref sig .tc .vmem S8192 .i32) (h5 : a5.IsWhole) (a6 : Memref sig .tc .vmem S1024x48 .f32) (h6 : a6.IsWhole)
    (hc : ¬cond0_0 i) (x0 : Vec F S8192x48 .f32) (x1 : Vec F S8192 .f32) (x2 : Vec F S8192 .i32) (x3 : Vec F S8192 .i32)
    (xo : Vec F S1024x48 .f32) :
    out0_B_4 c i a2 h2 a3 h3 a4 h4 a5 h5 a6 h6 hc x0 x1 x2 x3 xo = k0_pay2 i x0 x1 x2 x3 xo := by
  unfold out0_B_4
  rw [View.read_writes_eq_canon _ _ _ (cover0_B_4 c i a2 h2 a3 h3 a4 h4 a5 h5 a6 h6 hc x0 x1 x2 x3 xo)]
  unfold kernelRun0_B
  dsimp only
  sl_unfold_words
  rw [View.canon_unit_zero hz2]
  simp only [View.readAt_eq_ld, h2.read_unread, h3.read_unread, h4.read_unread, h5.read_unread, h6.read_unread,
    View.ld_unit_zero (S := S8192x48) hz2, View.ld_unit_zero (S := S8192) hz1, View.ld_unit_zero (S := S1024x48) hz2]

/-- The first edge block of a node block: the update of the zero block just stored. -/
theorem out_A (c : Dev nD) (i : grid0.Coords) (a2 : Memref sig .tc .vmem S8192x48 .f32) (h2 : a2.IsWhole)
    (a3 : Memref sig .tc .vmem S8192 .f32) (h3 : a3.IsWhole) (a4 : Memref sig .tc .vmem S8192 .i32) (h4 : a4.IsWhole)
    (a5 : Memref sig .tc .vmem S8192 .i32) (h5 : a5.IsWhole) (a6 : Memref sig .tc .vmem S1024x48 .f32) (h6 : a6.IsWhole)
    (hc : cond0_0 i) (x0 : Vec F S8192x48 .f32) (x1 : Vec F S8192 .f32) (x2 : Vec F S8192 .i32) (x3 : Vec F S8192 .i32) :
    out0_A_4 c i a2 h2 a3 h3 a4 h4 a5 h5 a6 h6 hc x0 x1 x2 x3 = k0_pay2 i x0 x1 x2 x3 (k0_pay1 (F := F)) := by
  unfold out0_A_4
  rw [View.read_writes_eq_canon _ _ _ (cover0_A_4 c i a2 h2 a3 h3 a4 h4 a5 h5 a6 h6 hc x0 x1 x2 x3)]
  unfold kernelRun0_A
  dsimp only
  sl_unfold_words
  rw [View.canon_cons_unit_zero (S := S1024x48) hz2, View.readCov_unit_zero (S := S1024x48) _ hz2]
  simp only [View.readAt_eq_ld, h2.read_unread, h3.read_unread, h4.read_unread, h5.read_unread,
    View.ld_unit_zero (S := S8192x48) hz2, View.ld_unit_zero (S := S8192) hz1]

end Cert.KernelIdeal.Pieces

end
-- ==== Proof.Accum.lean ====
/-
  The kernel's output array after the run, over the extended reals.
  Grid point `t` is node block `t / 196`, edge block `t % 196`. The output block of a node block stays in its
  staging buffer across the 196 edge blocks: it is reset at edge block 0, each point adds the contribution of its
  8192 edges, and it is written back after edge block 195. So after point `t` the buffer holds, at row `r` and
  feature `d`, the sum over the edges `e < 8192 · (t % 196 + 1)` of edge `e`'s contribution to node
  `1024 · (t / 196) + r`; at the write-back that is the sum over all 1,605,632 padded edges, and the 98 blocks tile
  the [100352, 48] array.
-/
import proofs.«410101_j7971459302125_1_alg».proof.Proof.Gen.KernelIdeal.Frame
import proofs.«410101_j7971459302125_1_alg».proof.Proof.Spec
import proofs.«410101_j7971459302125_1_alg».proof.Proof.Payload
import proofs.«410101_j7971459302125_1_alg».proof.Proof.Pieces
import Idealize.ShloMosaic.Lib.Pipeline.Value
import Idealize.ShloMosaic.Lib.ValueIdx

noncomputable section

namespace Cert.KernelIdeal.Accum

open Cert.KernelIdeal Cert.KernelIdeal.Gen Idealize.ShloMosaic Idealize.ShloMosaic.TcCoe Idealize.SL.Sem
open Idealize.ShloMosaic.Pipeline (Dat)
open Idealize.ShloMosaic.ValueIdx Cert.EdgeScatter

variable (m : (ℓ : Loc nD τ sig) → Buf (Elt Ideal) ℓ) (ρ : Dev nD → PrngReg)

/-! ## The grid and the index maps -/

theorem N_eq : cfg0.N = 19208 := N_0

theorem coord1 (t : Fin cfg0.N) : (grid0.coords t 1).val = t.val % 196 := by
  show t.val / grid0.stride 1 % grid0.bound 1 = _
  have h1 : grid0.stride 1 = 1 := by decide
  have h2 : grid0.bound 1 = 196 := rfl
  rw [h1, h2, Nat.div_one]

theorem coord0 (t : Fin cfg0.N) : (grid0.coords t 0).val = t.val / 196 := by
  show t.val / grid0.stride 0 % grid0.bound 0 = _
  have h1 : grid0.stride 0 = 196 := by decide
  have h2 : grid0.bound 0 = 98 := rfl
  have hN : t.val < 19208 := lt_of_lt_of_eq t.isLt N_eq
  rw [h1, h2]; omega

/-- The edge windows' block index is the edge block. -/
theorem index0 (t : Fin cfg0.N) : win0_0.index t 0 = t.val % 196 := by
  show (BitVec.ofNat 32 (grid0.coords t 1).val).toNat = _
  rw [coord1, BitVec.toNat_ofNat]; omega
theorem index0' (t : Fin cfg0.N) : win0_0.index t 1 = 0 := rfl
theorem index1 (t : Fin cfg0.N) : win0_1.index t 0 = t.val % 196 := by
  show (BitVec.ofNat 32 (grid0.coords t 1).val).toNat = _
  rw [coord1, BitVec.toNat_ofNat]; omega
theorem index2 (t : Fin cfg0.N) : win0_2.index t 0 = t.val % 196 := by
  show (BitVec.ofNat 32 (grid0.coords t 1).val).toNat = _
  rw [coord1, BitVec.toNat_ofNat]; omega
theorem index3 (t : Fin cfg0.N) : win0_3.index t 0 = t.val % 196 := by
  show (BitVec.ofNat 32 (grid0.coords t 1).val).toNat = _
  rw [coord1, BitVec.toNat_ofNat]; omega
/-- The output window's block index is the node block. -/
theorem index4 (t : Fin cfg0.N) : win0_4.index t 0 = t.val / 196 := by
  show (BitVec.ofNat 32 (grid0.coords t 0).val).toNat = _
  have hN : t.val < 19208 := lt_of_lt_of_eq t.isLt N_eq
  rw [coord0, BitVec.toNat_ofNat]; omega
theorem index4' (t : Fin cfg0.N) : win0_4.index t 1 = 0 := rfl

/-! ## The input blocks, read at an index -/

/-- The point's blocks, at their literal types. -/
abbrev xblk (c : Dev nD) (t : Fin cfg0.N) : Vec Ideal S8192x48 .f32 := iblk m c 0 t
abbrev swblk (c : Dev nD) (t : Fin cfg0.N) : Vec Ideal S8192 .f32 := iblk m c 1 t
abbrev srcblk (c : Dev nD) (t : Fin cfg0.N) : Vec Ideal S8192 .i32 := iblk m c 2 t
abbrev dstblk (c : Dev nD) (t : Fin cfg0.N) : Vec Ideal S8192 .i32 := iblk m c 3 t

theorem edge_lt (t : Fin cfg0.N) (k : Fin 8192) : 8192 * (t.val % 196) + k.val < 1605632 := by
  have := Nat.mod_lt t.val (by decide : 0 < 196); have := k.isLt; omega

theorem xblk_apply (c : Dev nD) (t : Fin cfg0.N) (k : Fin 8192) (d : Fin 48) :
    xblk m c t (ix2 k d) = (V m c main_v0 : S1605632x48.Idx → EReal) (ix2 ⟨8192 * (t.val % 196) + k.val, edge_lt t k⟩ d) := by
  unfold xblk iblk
  rw [View.read_apply]
  show V m c main_v0 _ = V m c main_v0 _
  congr 1
  funext a
  apply Fin.ext
  match a with
  | ⟨0, _⟩ => show win0_0.index t 0 * 8192 + 1 * k.val = 8192 * (t.val % 196) + k.val; rw [index0]; omega
  | ⟨1, _⟩ => show win0_0.index t 1 * 48 + 1 * d.val = d.val; rw [index0']; omega

theorem swblk_apply (c : Dev nD) (t : Fin cfg0.N) (k : Fin 8192) :
    swblk m c t (ix1 k) = (V m c main_v1 : S1605632.Idx → EReal) (ix1 ⟨8192 * (t.val % 196) + k.val, edge_lt t k⟩) := by
  unfold swblk iblk
  rw [View.read_apply]
  show V m c main_v1 _ = V m c main_v1 _
  congr 1
  funext a
  apply Fin.ext
  match a with
  | ⟨0, _⟩ => show win0_1.index t 0 * 8192 + 1 * k.val = 8192 * (t.val % 196) + k.val; rw [index1]; omega

theorem srcblk_apply (c : Dev nD) (t : Fin cfg0.N) (k : Fin 8192) :
    srcblk m c t (ix1 k) = (V m c main_v2 : S1605632.Idx → BitVec 32) (ix1 ⟨8192 * (t.val % 196) + k.val, edge_lt t k⟩) := by
  unfold srcblk iblk
  rw [View.read_apply]
  show V m c main_v2 _ = V m c main_v2 _
  congr 1
  funext a
  apply Fin.ext
  match a with
  | ⟨0, _⟩ => show win0_2.index t 0 * 8192 + 1 * k.val = 8192 * (t.val % 196) + k.val; rw [index2]; omega

theorem dstblk_apply (c : Dev nD) (t : Fin cfg0.N) (k : Fin 8192) :
    dstblk m c t (ix1 k) = (V m c main_v3 : S1605632.Idx → BitVec 32) (ix1 ⟨8192 * (t.val % 196) + k.val, edge_lt t k⟩) := by
  unfold dstblk iblk
  rw [View.read_apply]
  show V m c main_v3 _ = V m c main_v3 _
  congr 1
  funext a
  apply Fin.ext
  match a with
  | ⟨0, _⟩ => show win0_3.index t 0 * 8192 + 1 * k.val = 8192 * (t.val % 196) + k.val; rw [index3]; omega

/-! ## One edge's contribution, over the padded arrays -/

/-- The padded arrays as the region finds them, at their literal types. -/
abbrev xp (c : Dev nD) : S1605632x48.Idx → EReal := V m c main_v0
abbrev swp (c : Dev nD) : S1605632.Idx → EReal := V m c main_v1
abbrev srcp (c : Dev nD) : S1605632.Idx → BitVec 32 := V m c main_v2
abbrev dstp (c : Dev nD) : S1605632.Idx → BitVec 32 := V m c main_v3

/-- What padded edge `e` contributes to feature `d` of node `n`; zero beyond the padded length. -/
def pterm (c : Dev nD) (n : ℕ) (d : Fin 48) (e : ℕ) : EReal :=
  if h : e < 1605632 then
    (hot (srcp m c (ix1 ⟨e, h⟩)) n + hot (dstp m c (ix1 ⟨e, h⟩)) n) * (xp m c (ix2 ⟨e, h⟩ d) * swp m c (ix1 ⟨e, h⟩))
  else 0

/-- The 8192 edges of the point's edge block, summed: the sum of their contributions over the padded arrays. -/
theorem block_sum (c : Dev nD) (t : Fin cfg0.N) (n : ℕ) (d : Fin 48) :
    (∑ k : Fin 8192, (hot (srcblk m c t (ix1 k)) n + hot (dstblk m c t (ix1 k)) n) * (xblk m c t (ix2 k d) * swblk m c t (ix1 k)))
      = ∑ x ∈ Finset.range 8192, pterm m c n d (8192 * (t.val % 196) + x) := by
  rw [← Fin.sum_univ_eq_sum_range (fun x => pterm m c n d (8192 * (t.val % 196) + x)) 8192]
  refine Finset.sum_congr rfl (fun k _ => ?_)
  rw [xblk_apply, swblk_apply, srcblk_apply, dstblk_apply]
  unfold pterm
  rw [dif_pos (edge_lt t k)]

/-! ## What the staging buffer holds after each point -/

/-- After point `n` the output block holds the contributions of the edges of the edge blocks up to `n % 196`. -/
theorem acc_eq (c : Dev nD) : ∀ (n : ℕ) (h : n < cfg0.N) (r : Fin 1024) (d : Fin 48),
    (outsAt0 m c n h : Vec Ideal S1024x48 .f32) (ix2 r d)
      = ∑ e ∈ Finset.range (8192 * (n % 196 + 1)), pterm m c (1024 * (n / 196) + r.val) d e
  | n, h, r, d => by
    by_cases h0 : n % 196 = 0
    · have hA := outsAt0_A m c ⟨n, h⟩ h0
      dsimp only at hA
      rw [hA, Pieces.out_A]
      refine (Pay.pay2_apply (grid0.coords ⟨n, h⟩) (xblk m c ⟨n, h⟩) (swblk m c ⟨n, h⟩) (srcblk m c ⟨n, h⟩) (dstblk m c ⟨n, h⟩) (k0_pay1 (F := Ideal)) r d).trans ?_
      rw [Pay.pay1_apply, zero_add, coord0, block_sum]
      show ∑ x ∈ Finset.range 8192, pterm m c (1024 * (n / 196) + r.val) d (8192 * (n % 196) + x) = _
      rw [h0]
      simp only [Nat.mul_zero, Nat.zero_add, Nat.mul_one]
    · have hB := outsAt0_B m c ⟨n, h⟩ h0
      dsimp only at hB
      rw [hB, Pieces.out_B]
      refine (Pay.pay2_apply (grid0.coords ⟨n, h⟩) (xblk m c ⟨n, h⟩) (swblk m c ⟨n, h⟩) (srcblk m c ⟨n, h⟩) (dstblk m c ⟨n, h⟩) _ r d).trans ?_
      have hn1 : n - 1 < cfg0.N := Nat.lt_of_le_of_lt (Nat.sub_le _ _) h
      rw [acc_eq c (n - 1) hn1 r d, coord0, block_sum]
      show _ + ∑ x ∈ Finset.range 8192, pterm m c (1024 * (n / 196) + r.val) d (8192 * (n % 196) + x) = _
      have e1 : (n - 1) / 196 = n / 196 := by omega
      have e2 : 8192 * ((n - 1) % 196 + 1) = 8192 * (n % 196) := by omega
      have e3 : 8192 * (n % 196 + 1) = 8192 * (n % 196) + 8192 := by omega
      rw [e1, e2, e3, Finset.sum_range_add]
  termination_by n => n
  decreasing_by omega

/-! ## The output array after the run -/

/-- The [100352, 48] output array: at node `n`, feature `d`, the contributions of all the padded edges. -/
def Gpad (c : Dev nD) : S100352x48.Idx → EReal :=
  fun j => ∑ e ∈ Finset.range 1605632, pterm m c (j 0).val (j 1) e

set_option maxRecDepth 65536 in
/-- What a write-back writes is its block of that array. -/
theorem flushed_eq (c : Dev nD) (t : Fin cfg0.N) (hf : (cfg0.win 4).flush t = true) :
    (dats m 0 c).flushed 4 t = ((cfg0.win 4).blk t).view.read (Elt Ideal) (Gpad m c) := by
  have h195 : t.val % 196 = 195 := (flush0_4 t).mp hf
  show (cfg0.win 4).cut (grid0.coords t) ((dats m 0 c).after 4 t) = _
  rw [after0_4]
  funext j
  rw [View.read_apply]
  have hj0 : (j 0).val < 1024 := lt_of_lt_of_le (j 0).isLt ((cfg0.win 4).xsize_le (grid0.coords t) 0)
  have hj1 : (j 1).val < 48 := lt_of_lt_of_le (j 1).isLt ((cfg0.win 4).xsize_le (grid0.coords t) 1)
  have hx : (cfg0.win 4).xinj (grid0.coords t) j = (ix2 ⟨(j 0).val, hj0⟩ ⟨(j 1).val, hj1⟩ : S1024x48.Idx) :=
    funext fun a => by
      match a with
      | ⟨0, _⟩ => rfl
      | ⟨1, _⟩ => rfl
  refine (congrArg (outsAt0 m c t.val t.isLt : Vec Ideal S1024x48 .f32) hx).trans ?_
  rw [acc_eq m c t.val t.isLt ⟨(j 0).val, hj0⟩ ⟨(j 1).val, hj1⟩, cast_eq]
  unfold Gpad
  have e0 : ((((cfg0.win 4).blk t).view.emb j) 0).val = 1024 * (t.val / 196) + (j 0).val := by
    show win0_4.index t 0 * 1024 + 1 * (j 0).val = _
    rw [index4]; omega
  have e1 : (((cfg0.win 4).blk t).view.emb j) 1 = (⟨(j 1).val, hj1⟩ : Fin 48) := by
    apply Fin.ext
    show win0_4.index t 1 * 48 + 1 * (j 1).val = (j 1).val
    rw [index4']; omega
  rw [e0, e1, h195]

/-- Every index of the array is in the block some write-back writes: node `n` is in node block `n / 1024`,
    written back after that block's last edge block. -/
theorem cover (c : Dev nD) (i : S100352x48.Idx) :
    ∃ t : Fin cfg0.N, (cfg0.win 4).flush t = true ∧ i ∈ ((cfg0.win 4).blk t).view.set := by
  have hi0 : (i 0).val < 100352 := (i 0).isLt
  have hi1 : (i 1).val < 48 := (i 1).isLt
  have hlt : 196 * ((i 0).val / 1024) + 195 < cfg0.N := by rw [N_eq]; omega
  refine ⟨⟨196 * ((i 0).val / 1024) + 195, hlt⟩, (flush0_4 _).mpr (by show (196 * ((i 0).val / 1024) + 195) % 196 = 195; omega), ?_⟩
  show i ∈ ((View.whole main_v4).slice (win0_4.rect ⟨196 * ((i 0).val / 1024) + 195, hlt⟩)).set
  rw [View.set_slice_whole, Rect.mem_set_unit]
  intro a
  match a with
  | ⟨0, _⟩ =>
    show win0_4.index ⟨196 * ((i 0).val / 1024) + 195, hlt⟩ 0 * 1024 ≤ (i 0).val
      ∧ (i 0).val < win0_4.index ⟨196 * ((i 0).val / 1024) + 195, hlt⟩ 0 * 1024 + 1024
    rw [index4]
    show (196 * ((i 0).val / 1024) + 195) / 196 * 1024 ≤ (i 0).val ∧ (i 0).val < (196 * ((i 0).val / 1024) + 195) / 196 * 1024 + 1024
    omega
  | ⟨1, _⟩ =>
    show win0_4.index ⟨196 * ((i 0).val / 1024) + 195, hlt⟩ 1 * 48 ≤ (i 1).val
      ∧ (i 1).val < win0_4.index ⟨196 * ((i 0).val / 1024) + 195, hlt⟩ 1 * 48 + 48
    rw [index4']
    omega

/-- So the output array ends holding `Gpad`. -/
theorem final (c : Dev nD) : (dats m 0 c).arrAt 4 cfg0.N = Gpad m c :=
  (dats m 0 c).arrAt_eq_of_cover 4 (Gpad m c) (flushed_eq m c) (cover c)

end Cert.KernelIdeal.Accum

end
-- ==== Proof.HostPre.lean ====
/-
  The arrays the kernel region finds. Before the region the program pads the edge axis of the four edge arrays
  from 1,600,000 to 1,605,632 entries (196 blocks of 8192) with zeros: below 1,600,000 a padded array is the
  argument, from there on it is the zero (the float zero for the features and the switch, the zero word for the
  endpoints).
-/
import proofs.«410101_j7971459302125_1_alg».proof.Proof.Gen.KernelIdeal.Frame
import Idealize.ShloMosaic.Lib.Pipeline.Value
import Idealize.ShloMosaic.Lib.KernelVsHost
import Idealize.ShloMosaic.Lib.StableHlo.Run
import Idealize.ShloMosaic.Lib.ValueIdx
import Idealize.ShloMosaic.PureOps.Ideal.Laws

noncomputable section

namespace Cert.KernelIdeal.HostPre

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-- The padded features, as the region finds them. -/
theorem V_v0 (c : Dev nD) : (V m c main_v0 : S1605632x48.Idx → EReal)
    = pad S1605632x48 ![0, 0] ![5632, 0] ![0, 0] (m ((c : Thread nD τ).loc main_arg0))
        (sitofp (F := Ideal) .f32 (constantI S_ 32 0#32)) pads_S1600000x48_S1605632x48_056320_000 h_S_ := by
  dsimp only [Gen.V, Gen.V0]
  simp only [Gen.hostOps0, Gen.hostOps0_1, Gen.hostOps0_2, Gen.hostOps0_3, Gen.hostOps0_4, Gen.hostOps0_5, Gen.hostOps0_6,
    Gen.hostOps0_7, List.flatten_cons, List.flatten_nil, List.append_nil, List.cons_append, List.nil_append]
  after_results
  rfl

/-- The padded switch. -/
theorem V_v1 (c : Dev nD) : (V m c main_v1 : S1605632.Idx → EReal)
    = pad S1605632 ![0] ![5632] ![0] (m ((c : Thread nD τ).loc main_arg1))
        (sitofp (F := Ideal) .f32 (constantI S_ 32 0#32)) pads_S1600000_S1605632_056320 h_S_ := by
  dsimp only [Gen.V, Gen.V0]
  simp only [Gen.hostOps0, Gen.hostOps0_1, Gen.hostOps0_2, Gen.hostOps0_3, Gen.hostOps0_4, Gen.hostOps0_5, Gen.hostOps0_6,
    Gen.hostOps0_7, List.flatten_cons, List.flatten_nil, List.append_nil, List.cons_append, List.nil_append]
  after_results
  rfl

/-- The padded source endpoints. -/
theorem V_v2 (c : Dev nD) : (V m c main_v2 : S1605632.Idx → BitVec 32)
    = pad S1605632 ![0] ![5632] ![0] (m ((c : Thread nD τ).loc main_arg3))
        (constantI S_ 32 0#32) pads_S1600000_S1605632_056320 h_S_ := by
  dsimp only [Gen.V, Gen.V0]
  simp only [Gen.hostOps0, Gen.hostOps0_1, Gen.hostOps0_2, Gen.hostOps0_3, Gen.hostOps0_4, Gen.hostOps0_5, Gen.hostOps0_6,
    Gen.hostOps0_7, List.flatten_cons, List.flatten_nil, List.append_nil, List.cons_append, List.nil_append]
  after_results
  rfl

/-- The padded destination endpoints. -/
theorem V_v3 (c : Dev nD) : (V m c main_v3 : S1605632.Idx → BitVec 32)
    = pad S1605632 ![0] ![5632] ![0] (m ((c : Thread nD τ).loc main_arg4))
        (constantI S_ 32 0#32) pads_S1600000_S1605632_056320 h_S_ := by
  dsimp only [Gen.V, Gen.V0]
  simp only [Gen.hostOps0, Gen.hostOps0_1, Gen.hostOps0_2, Gen.hostOps0_3, Gen.hostOps0_4, Gen.hostOps0_5, Gen.hostOps0_6,
    Gen.hostOps0_7, List.flatten_cons, List.flatten_nil, List.append_nil, List.cons_append, List.nil_append]
  after_results
  rfl

/-- The float padding value is zero. -/
theorem padval (j : S_.Idx) : (sitofp (F := Ideal) .f32 (constantI S_ 32 0#32)) j = (0 : EReal) := by
  show (((0#32 : BitVec 32).toInt : ℝ) : EReal) = 0
  simp

/-! ## Read at an edge -/

theorem xp_inside (c : Dev nD) (e : Fin 1600000) (d : Fin 48) :
    (V m c main_v0 : S1605632x48.Idx → EReal) (ix2 ⟨e.val, by have := e.isLt; omega⟩ d)
      = m ((c : Thread nD τ).loc main_arg0) (ix2 e d) := by
  rw [V_v0]
  refine pad_apply_of_inside _ _ _ _ _ _ _ _ (ix2 e d) (fun a => ?_)
  match a with
  | ⟨0, _⟩ => show e.val = 0 + e.val * (0 + 1); omega
  | ⟨1, _⟩ => show d.val = 0 + d.val * (0 + 1); omega

theorem xp_outside (c : Dev nD) (e : Fin 1605632) (he : 1600000 ≤ e.val) (d : Fin 48) :
    (V m c main_v0 : S1605632x48.Idx → EReal) (ix2 e d) = (0 : EReal) := by
  rw [V_v0]
  refine (pad_apply_of_not_inside _ _ _ _ _ _ _ (ix2 e d) (0 : Fin 2) (fun h => ?_)).trans (padval _)
  have h3 : (e.val - 0) / (0 + 1) < 1600000 := h.2.2
  omega

theorem swp_inside (c : Dev nD) (e : Fin 1600000) :
    (V m c main_v1 : S1605632.Idx → EReal) (ix1 ⟨e.val, by have := e.isLt; omega⟩)
      = m ((c : Thread nD τ).loc main_arg1) (ix1 e) := by
  rw [V_v1]
  refine pad_apply_of_inside _ _ _ _ _ _ _ _ (ix1 e) (fun a => ?_)
  match a with
  | ⟨0, _⟩ => show e.val = 0 + e.val * (0 + 1); omega

theorem swp_outside (c : Dev nD) (e : Fin 1605632) (he : 1600000 ≤ e.val) :
    (V m c main_v1 : S1605632.Idx → EReal) (ix1 e) = (0 : EReal) := by
  rw [V_v1]
  refine (pad_apply_of_not_inside _ _ _ _ _ _ _ (ix1 e) (0 : Fin 1) (fun h => ?_)).trans (padval _)
  have h3 : (e.val - 0) / (0 + 1) < 1600000 := h.2.2
  omega

theorem srcp_inside (c : Dev nD) (e : Fin 1600000) :
    (V m c main_v2 : S1605632.Idx → BitVec 32) (ix1 ⟨e.val, by have := e.isLt; omega⟩)
      = m ((c : Thread nD τ).loc main_arg3) (ix1 e) := by
  rw [V_v2]
  refine pad_apply_of_inside _ _ _ _ _ _ _ _ (ix1 e) (fun a => ?_)
  match a with
  | ⟨0, _⟩ => show e.val = 0 + e.val * (0 + 1); omega

theorem dstp_inside (c : Dev nD) (e : Fin 1600000) :
    (V m c main_v3 : S1605632.Idx → BitVec 32) (ix1 ⟨e.val, by have := e.isLt; omega⟩)
      = m ((c : Thread nD τ).loc main_arg4) (ix1 e) := by
  rw [V_v3]
  refine pad_apply_of_inside _ _ _ _ _ _ _ _ (ix1 e) (fun a => ?_)
  match a with
  | ⟨0, _⟩ => show e.val = 0 + e.val * (0 + 1); omega

end Cert.KernelIdeal.HostPre

end
-- ==== Proof.KernelRun.lean ====
/-
  The idealized kernel's run, read: its result is the scatter function of the arguments.
  After the region the program keeps the first 100,000 rows of the [100352, 48] output array. A kept row `n`
  holds the contributions of all the padded edges to node `n`; the 5,632 padding edges contribute nothing (their
  feature row and switch are zero), and a padded edge below 1,600,000 is the argument's edge.
-/
import proofs.«410101_j7971459302125_1_alg».proof.Proof.Accum
import proofs.«410101_j7971459302125_1_alg».proof.Proof.HostPre
import Idealize.ShloMosaic.Lib.StableHlo.Run

noncomputable section

namespace Cert.KernelIdeal.KernelRun

open Cert.KernelIdeal Cert.KernelIdeal.Gen Idealize.ShloMosaic Idealize.ShloMosaic.TcCoe Idealize.SL.Sem
open Idealize.ShloMosaic.Pipeline (Dat)
open Idealize.ShloMosaic.ValueIdx Cert.EdgeScatter

variable (m : (ℓ : Loc nD τ sig) → Buf (Elt Ideal) ℓ) (ρ : Dev nD → PrngReg)

/-- The arguments at their literal types. -/
abbrev X (c : Dev nD) : S1600000x48.Idx → EReal := m ((c : Thread nD τ).loc main_arg0)
abbrev SW (c : Dev nD) : S1600000.Idx → EReal := m ((c : Thread nD τ).loc main_arg1)
abbrev SRC (c : Dev nD) : S1600000.Idx → BitVec 32 := m ((c : Thread nD τ).loc main_arg3)
abbrev DST (c : Dev nD) : S1600000.Idx → BitVec 32 := m ((c : Thread nD τ).loc main_arg4)

/-- A padded edge below 1,600,000 contributes what the argument's edge does. -/
theorem pterm_inside (c : Dev nD) (n : ℕ) (d : Fin 48) (e : Fin 1600000) :
    Accum.pterm m c n d e.val = term (X m c) (SW m c) (SRC m c) (DST m c) n d e := by
  have he : e.val < 1605632 := by have := e.isLt; omega
  have h0 : Accum.xp m c (ix2 ⟨e.val, he⟩ d) = X m c (ix2 e d) := HostPre.xp_inside m c e d
  have h1 : Accum.swp m c (ix1 ⟨e.val, he⟩) = SW m c (ix1 e) := HostPre.swp_inside m c e
  have h2 : Accum.srcp m c (ix1 ⟨e.val, he⟩) = SRC m c (ix1 e) := HostPre.srcp_inside m c e
  have h3 : Accum.dstp m c (ix1 ⟨e.val, he⟩) = DST m c (ix1 e) := HostPre.dstp_inside m c e
  unfold Accum.pterm term
  rw [dif_pos he, h0, h1, h2, h3]

/-- A padding edge contributes nothing. -/
theorem pterm_outside (c : Dev nD) (n : ℕ) (d : Fin 48) (e : ℕ) (he : 1600000 ≤ e) : Accum.pterm m c n d e = 0 := by
  unfold Accum.pterm
  split_ifs with h
  · have h0 : Accum.xp m c (ix2 ⟨e, h⟩ d) = (0 : EReal) := HostPre.xp_outside m c ⟨e, h⟩ he d
    rw [h0, zero_mul, mul_zero]
  · rfl

/-- A kept row of the output array is the scatter function there. -/
theorem Gpad_apply (c : Dev nD) (n : Fin 100000) (d : Fin 48) :
    Accum.Gpad m c (ix2 ⟨n.val, by have := n.isLt; omega⟩ d) = scat (X m c) (SW m c) (SRC m c) (DST m c) (ix2 n d) := by
  rw [scat_apply]
  show ∑ e ∈ Finset.range 1605632, Accum.pterm m c n.val d e = _
  rw [show (1605632 : ℕ) = 1600000 + 5632 from rfl, Finset.sum_range_add,
    Finset.sum_eq_zero (s := Finset.range 5632) (fun x _ => pterm_outside m c n.val d (1600000 + x) (Nat.le_add_right _ _)), add_zero,
    ← Fin.sum_univ_eq_sum_range (fun e => Accum.pterm m c n.val d e) 1600000]
  exact Finset.sum_congr rfl (fun e _ => pterm_inside m c n.val d e)

/-- The program's result: the slice of the output array the host tail takes. -/
theorem result_eq (c : Dev nD) :
    Pipeline.afterTail₀ cfgs (dats m) 0 (V0 m) [hostOps1] c main_v5 = scat (X m c) (SW m c) (SRC m c) (DST m c) := by
  unfold Pipeline.afterTail₀
  show StableHlo.after hostOps1 _ (Proc.devRef .tc main_v5) = _
  after_results
  have hA : Pipeline.withArrays (cfgs 0).spec c (V0 m c) (fun w => (dats m 0 c).arrAt w (cfgs 0).N) (Proc.devRef .tc main_v4)
      = Accum.Gpad m c :=
    (Pipeline.withArrays_arr spec0 launch0.win.arr_inj c _ _ 4).trans (Accum.final m c)
  rw [hA]
  funext i
  obtain ⟨n, d, rfl⟩ : ∃ (n : Fin 100000) (d : Fin 48), i = ix2 n d := ⟨i 0, i 1, eq_ix2 i⟩
  refine (extractStridedSlice_apply _ _ _ (ix2 n d) (ix2 ⟨n.val, by have := n.isLt; omega⟩ d) (fun a => ?_)).trans
    (Gpad_apply m c n d)
  match a with
  | ⟨0, _⟩ => show n.val = 0 + n.val; omega
  | ⟨1, _⟩ => show d.val = 0 + d.val; omega

/-- The idealized kernel's run: the result array at the scatter function of the arguments, the arguments unchanged. -/
theorem run : θ_run defs (onTc (τ := τ) (main (F := Ideal))) ⟨m, fun _ => 0, ρ⟩ (fun r => ∀ c : Dev nD,
      r.2.mem ((c.tc : Thread nD τ).loc main_v5) = scat (X m c) (SW m c) (SRC m c) (DST m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v5 (Pipeline.mem_restRefs_of main_v5 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.KernelRun

end
-- ==== Proof.RefValue.lean ====
/-
  The reference's result as the scatter function of the arguments. The reference wraps a negative endpoint by
  adding the node count and then scatter-adds the switched features twice, once per endpoint array, onto a zero
  array; an update whose (wrapped) endpoint is outside [0, 100000) is dropped. With every endpoint non-negative the
  wrap does nothing, the updates landing on node `n` are the edges whose endpoint word is `n`'s, and
  (0 + ∑ₑ ⟦src e = n⟧·xs) + ∑ₑ ⟦dst e = n⟧·xs = ∑ₑ (⟦src e = n⟧ + ⟦dst e = n⟧)·xs, the coefficients being non-negative.
-/
import proofs.«410101_j7971459302125_1_alg».proof.Proof.Gen.ReferenceIdeal.Read
import proofs.«410101_j7971459302125_1_alg».proof.Proof.Spec
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen Idealize.ShloMosaic Idealize.ShloMosaic.ValueIdx Cert.EdgeScatter

/-- On the node axis the window of update `j` starts at the index word of `j`'s edge, read signed. -/
theorem start_zero (j : S1600000x48.Idx) (idx : IVec S1600000x1 32) :
    scatter_S100000x48_S1600000x1_S1600000x48_1_0_0_1.start j idx 0 = (idx (ix2 (j 0) 0)).toInt := by
  unfold ScatterDims.start
  rw [dif_pos (show (0 : Fin 2) ∈ scatter_S100000x48_S1600000x1_S1600000x48_1_0_0_1.scatterDimsToOperandDims from List.mem_singleton.mpr rfl)]
  congr 2
  funext b
  refine Fin.ext ?_
  match b with
  | ⟨0, _⟩ => rfl
  | ⟨1, _⟩ => rfl

/-- The feature axis is not named by the index map: its window starts at 0. -/
theorem start_one (j : S1600000x48.Idx) (idx : IVec S1600000x1 32) :
    scatter_S100000x48_S1600000x1_S1600000x48_1_0_0_1.start j idx 1 = 0 := by
  unfold ScatterDims.start
  rw [dif_neg (show ¬ (1 : Fin 2) ∈ scatter_S100000x48_S1600000x1_S1600000x48_1_0_0_1.scatterDimsToOperandDims from by decide)]

/-- The node axis is an inserted window axis: the window coordinate there is 0. -/
theorem window_zero (j : S1600000x48.Idx) : scatter_S100000x48_S1600000x1_S1600000x48_1_0_0_1.window j 0 = 0 := by
  unfold ScatterDims.window
  rw [dif_neg (show ¬ (0 : Fin 2) ∈ scatter_S100000x48_S1600000x1_S1600000x48_1_0_0_1.sKept from by decide)]

/-- On the feature axis the window coordinate is the update's feature coordinate. -/
theorem window_one (j : S1600000x48.Idx) : scatter_S100000x48_S1600000x1_S1600000x48_1_0_0_1.window j 1 = (j 1).val := by
  unfold ScatterDims.window
  rw [dif_pos (show (1 : Fin 2) ∈ scatter_S100000x48_S1600000x1_S1600000x48_1_0_0_1.sKept from by decide)]
  rfl

/-- Update `(e, d')` lands on operand element `(n, d)` exactly when edge `e`'s index word, read signed, is `n` and the
    feature coordinates agree. -/
theorem resultIdx_iff (idx : IVec S1600000x1 32) (e : Fin 1600000) (d' : Fin 48) (n : Fin 100000) (d : Fin 48) :
    scatter_S100000x48_S1600000x1_S1600000x48_1_0_0_1.resultIdx? (ix2 e d') idx = some (ix2 n d) ↔
      (idx (ix2 e 0)).toInt = (n.val : ℤ) ∧ d' = d := by
  unfold ScatterDims.resultIdx?
  have h0 : scatter_S100000x48_S1600000x1_S1600000x48_1_0_0_1.start (ix2 e d') idx 0 + scatter_S100000x48_S1600000x1_S1600000x48_1_0_0_1.window (ix2 e d') 0 = (idx (ix2 e 0)).toInt := by
    rw [start_zero, window_zero]; simp
  have h1 : scatter_S100000x48_S1600000x1_S1600000x48_1_0_0_1.start (ix2 e d') idx 1 + scatter_S100000x48_S1600000x1_S1600000x48_1_0_0_1.window (ix2 e d') 1 = (d'.val : ℤ) := by
    rw [start_one, window_one]; simp
  constructor
  · intro h
    split_ifs at h with hc
    have hi := Option.some.inj h
    have e0 := congrArg (fun f => (f 0).val) hi
    have e1 := congrArg (fun f => (f 1).val) hi
    simp only [h0, h1] at e0 e1
    have c0 := (hc 0).1
    rw [h0] at c0
    refine ⟨?_, Fin.ext ?_⟩
    · have : ((ix2 n d : S100000x48.Idx) 0).val = n.val := rfl
      rw [this] at e0
      omega
    · have : ((ix2 n d : S100000x48.Idx) 1).val = d.val := rfl
      rw [this] at e1
      omega
  · rintro ⟨ht, rfl⟩
    have hc : ∀ a, 0 ≤ scatter_S100000x48_S1600000x1_S1600000x48_1_0_0_1.start (ix2 e d') idx a + scatter_S100000x48_S1600000x1_S1600000x48_1_0_0_1.window (ix2 e d') a ∧
        scatter_S100000x48_S1600000x1_S1600000x48_1_0_0_1.start (ix2 e d') idx a + scatter_S100000x48_S1600000x1_S1600000x48_1_0_0_1.window (ix2 e d') a < S100000x48.size a := by
      intro a
      match a with
      | ⟨0, _⟩ =>
        show 0 ≤ scatter_S100000x48_S1600000x1_S1600000x48_1_0_0_1.start (ix2 e d') idx 0 + scatter_S100000x48_S1600000x1_S1600000x48_1_0_0_1.window (ix2 e d') 0 ∧
          scatter_S100000x48_S1600000x1_S1600000x48_1_0_0_1.start (ix2 e d') idx 0 + scatter_S100000x48_S1600000x1_S1600000x48_1_0_0_1.window (ix2 e d') 0 < ((100000 : ℕ) : ℤ)
        rw [h0, ht]; have := n.isLt; omega
      | ⟨1, _⟩ =>
        show 0 ≤ scatter_S100000x48_S1600000x1_S1600000x48_1_0_0_1.start (ix2 e d') idx 1 + scatter_S100000x48_S1600000x1_S1600000x48_1_0_0_1.window (ix2 e d') 1 ∧
          scatter_S100000x48_S1600000x1_S1600000x48_1_0_0_1.start (ix2 e d') idx 1 + scatter_S100000x48_S1600000x1_S1600000x48_1_0_0_1.window (ix2 e d') 1 < ((48 : ℕ) : ℤ)
        rw [h1]; have := d'.isLt; omega
    rw [dif_pos hc]
    congr 1
    funext a
    refine Fin.ext ?_
    match a with
    | ⟨0, _⟩ =>
      show (scatter_S100000x48_S1600000x1_S1600000x48_1_0_0_1.start (ix2 e d') idx 0 + scatter_S100000x48_S1600000x1_S1600000x48_1_0_0_1.window (ix2 e d') 0).toNat = n.val
      rw [h0, ht]; simp
    | ⟨1, _⟩ =>
      show (scatter_S100000x48_S1600000x1_S1600000x48_1_0_0_1.start (ix2 e d') idx 1 + scatter_S100000x48_S1600000x1_S1600000x48_1_0_0_1.window (ix2 e d') 1).toNat = d'.val
      rw [h1]; simp

/-- The scatter-add read at `(n, d)`: the operand there plus the updates `(e, d)` of the edges whose index word is `n`. -/
theorem scatterAdd_apply (x : FVec Ideal S100000x48 .f32) (idx : IVec S1600000x1 32)
    (upd : FVec Ideal S1600000x48 .f32) (n : Fin 100000) (d : Fin 48) :
    Host.scatterAdd scatter_S100000x48_S1600000x1_S1600000x48_1_0_0_1 x idx upd (ix2 n d) =
      x (ix2 n d) + ∑ e : Fin 1600000, if (idx (ix2 e 0)).toInt = (n.val : ℤ) then upd (ix2 e d) else 0 := by
  unfold Host.scatterAdd
  rw [Ideal.hostScatterAdd_def]
  unfold Ideal.hostScatterAdd
  refine congrArg (x (ix2 n d) + ·) ?_
  refine (Finset.sum_filter _ _).trans ?_
  refine (sum_idx2 _).trans ?_
  refine Finset.sum_congr rfl fun e _ => ?_
  simp only [resultIdx_iff]
  by_cases ht : (idx (ix2 e 0)).toInt = (n.val : ℤ)
  · simp only [ht, true_and, if_true]
    exact Finset.sum_ite_eq' Finset.univ d (fun d' => upd (ix2 e d')) |>.trans (if_pos (Finset.mem_univ d))
  · simp only [ht, false_and, if_false]
    exact Finset.sum_const_zero

/-- A word whose signed value is non-negative is not signed-less-than zero. -/
theorem cmpi_slt_zero (a : BitVec 32) (h : 0 ≤ a.toInt) : IntOp.cmpi .slt a 0#32 = 0#1 := by
  have hf : a.slt 0#32 = false := by
    rw [BitVec.slt_eq_decide]
    simp only [BitVec.toInt_zero, decide_eq_false_iff_not, not_lt]
    exact h
  show BitVec.ofBool (a.slt 0#32) = 0#1
  rw [hf]; rfl

/-- A node number, below 100000 < 2³¹, is the signed value of its own 32-bit word. -/
theorem toInt_ofNat_small (n : ℕ) (hn : n < 100000) : (BitVec.ofNat 32 n).toInt = (n : ℤ) := by
  rw [BitVec.toInt_eq_toNat_cond, BitVec.toNat_ofNat]
  have : n % 2 ^ 32 = n := Nat.mod_eq_of_lt (by omega)
  rw [this, if_pos (by omega)]

/-- A word's signed value is the node number `n` exactly when the word is `n`'s word. -/
theorem toInt_eq_iff (a : BitVec 32) (n : ℕ) (hn : n < 100000) :
    a.toInt = (n : ℤ) ↔ a = BitVec.ofNat 32 n := by
  constructor
  · intro h; exact BitVec.eq_of_toInt_eq (h.trans (toInt_ofNat_small n hn).symm)
  · rintro rfl; exact toInt_ofNat_small n hn

/-- A non-negative first endpoint is left as it is by the wrap. -/
theorem wrap_src (src : IVec S1600000 32) (hs : ∀ e, 0 ≤ (src e).toInt) (e : Fin 1600000) :
    Read.val_main_v9 (F := Ideal) src (ix2 e 0) = src (ix1 e) := by
  rw [Read.val_main_v9_apply]
  have hi : Read.idx_main_v9 (ix2 e 0) = ix1 e := by funext a; match a with | ⟨0, _⟩ => rfl
  rw [hi, Read.val_main_v8_apply, Read.val_main_v5_apply, Read.val_main_v4_apply, Read.val_main_c_apply,
    cmpi_slt_zero _ (hs _), select_zero]

/-- A non-negative second endpoint is left as it is by the wrap. -/
theorem wrap_dst (dst : IVec S1600000 32) (hd : ∀ e, 0 ≤ (dst e).toInt) (e : Fin 1600000) :
    Read.val_main_v16 (F := Ideal) dst (ix2 e 0) = dst (ix1 e) := by
  rw [Read.val_main_v16_apply]
  have hi : Read.idx_main_v16 (ix2 e 0) = ix1 e := by funext a; match a with | ⟨0, _⟩ => rfl
  rw [hi, Read.val_main_v15_apply, Read.val_main_v12_apply, Read.val_main_v11_apply, Read.val_main_c_1_apply,
    cmpi_slt_zero _ (hd _), select_zero]

/-- The switched feature of edge `e` at `d`: the feature times the edge's switch. -/
theorem xs_apply (X : FVec Ideal S1600000x48 .f32) (SW : FVec Ideal S1600000 .f32) (e : Fin 1600000) (d : Fin 48) :
    Read.val_main_v2 (F := Ideal) X SW (ix2 e d) = X (ix2 e d) * SW (ix1 e) := by
  rw [Read.val_main_v2_apply, Read.val_main_v1_apply, Read.val_main_v0_apply]
  have hi : Read.idx_main_v0 (Read.idx_main_v1 (ix2 e d)) = ix1 e := by funext a; match a with | ⟨0, _⟩ => rfl
  rw [hi]; rfl

/-- Keeping `u` when the word's signed value is `n`, and 0 otherwise, is the one-hot coefficient times `u`. -/
theorem hot_mul (a : BitVec 32) (n : ℕ) (hn : n < 100000) (u : EReal) :
    (if a.toInt = (n : ℤ) then u else 0) = hot a n * u := by
  unfold hot
  by_cases h : a = BitVec.ofNat 32 n
  · rw [if_pos ((toInt_eq_iff a n hn).2 h), if_pos h, one_mul]
  · rw [if_neg (fun h' => h ((toInt_eq_iff a n hn).1 h')), if_neg h, zero_mul]

/-- With non-negative endpoint words the reference's last stage is the scatter function. -/
theorem ref_eq (X : FVec Ideal S1600000x48 .f32) (SW : FVec Ideal S1600000 .f32) (src dst : IVec S1600000 32)
    (hs : ∀ e, 0 ≤ (src e).toInt) (hd : ∀ e, 0 ≤ (dst e).toInt) :
    Cert.ReferenceIdeal.Read.val_main_v17 (F := Ideal) X SW src dst = scat X SW src dst := by
  funext i
  obtain ⟨n, d, rfl⟩ : ∃ (n : Fin 100000) (d : Fin 48), i = ix2 n d := ⟨i 0, i 1, eq_ix2 i⟩
  rw [scat_apply]
  unfold Read.val_main_v17 Read.val_main_v10
  rw [scatterAdd_apply, scatterAdd_apply, Read.val_main_v3_apply, Read.val_main_cst_apply]
  have hz : (FloatOps.ofBits .f32 0x00000000#32 : Ideal .f32) = 0 := Ideal.ofBits_zero_f32
  rw [hz, zero_add, ← Finset.sum_add_distrib]
  refine Finset.sum_congr rfl fun e _ => ?_
  rw [wrap_src src hs, wrap_dst dst hd, xs_apply, hot_mul _ _ n.isLt, hot_mul _ _ n.isLt]
  unfold term
  rw [EReal.right_distrib_of_nonneg (hot_nonneg _ _) (hot_nonneg _ _)]

end Cert.ReferenceIdeal.RefValue

end
-- ==== Proof.PreDecode.lean ====
/-
  What the precondition says about the endpoint arrays: every source word and every destination word is
  non-negative as a signed 32-bit integer (the two `all(idx ≥ 0)` conjuncts of the precondition).
-/
import proofs.«410101_j7971459302125_1_alg».proof.Proof.Gen.Pre_finite_inputs
import Idealize.ShloMosaic.Lib.StableHlo.Predicate
import Idealize.ShloMosaic.Lib.ReduceAll
import Idealize.ShloMosaic.PureOps.Ideal

noncomputable section

namespace Cert.Pre_finite_inputs.Decode

open Cert.Pre_finite_inputs Idealize.ShloMosaic

/-- A word that compares signed-greater-or-equal to the broadcast zero is non-negative. -/
theorem nonneg_of_sge_zero (x : IVec S1600000 32) (hb : S_.BroadcastsInDim S1600000 (![] : Fin 0 → Fin S1600000.rank))
    (e : S1600000.Idx)
    (he : cmpi .sge x (broadcastInDim S1600000 ![] hb (constantI S_ 32 0#32)) e = 1#1) : 0 ≤ (x e).toInt := by
  have h1 : (broadcastInDim S1600000 ![] hb (constantI S_ 32 0#32) e).toInt ≤ (x e).toInt := IntOp.cmpi_sge.1 he
  have h2 : broadcastInDim S1600000 ![] hb (constantI S_ 32 0#32) e = 0#32 := rfl
  rw [h2] at h1
  exact h1

/-- Under the precondition both endpoint arrays hold non-negative signed words. -/
theorem endpoints_nonneg (x0 : FVec Ideal S1600000x48 .f32) (x1 : FVec Ideal S1600000 .f32) (x2 : IVec S100000 32)
    (x3 x4 : IVec S1600000 32)
    (h : Cert.Pre_finite_inputs.fn (F := Ideal) x0 x1 x2 x3 x4 = fun _ => 1#1) :
    (∀ e, 0 ≤ (x3 e).toInt) ∧ (∀ e, 0 ≤ (x4 e).toInt) := by
  -- the rank-0 shape has exactly one index
  haveI : Subsingleton S_.Idx := ⟨fun a b => funext fun d => d.elim0⟩
  have h0 := congrFun h (fun d => d.elim0)
  dsimp only [Cert.Pre_finite_inputs.fn, Cert.Pre_finite_inputs.fn_part1] at h0
  obtain ⟨h12, h15⟩ := IntOp.andi_eq_one.1 h0
  obtain ⟨_, h11⟩ := IntOp.andi_eq_one.1 h12
  refine ⟨fun e => ?_, fun e => ?_⟩
  · exact nonneg_of_sge_zero x3 _ e (Host.reduce_andi_all _ _ _ _ _ h11 e)
  · exact nonneg_of_sge_zero x4 _ e (Host.reduce_andi_all _ _ _ _ _ h15 e)

end Cert.Pre_finite_inputs.Decode

end
-- ==== Proof.lean ====
/-
  The certificate of the edge → node scatter-add.

  Both programs compute, for node `n` and feature `d`,

      out[n, d] = ∑ₑ (⟦src e = n⟧ + ⟦dst e = n⟧) · (x[e, d] · switch[e])     (over the extended reals),

  every edge adding its switched feature row to each of its two endpoints. The kernel does it as a matrix product
  of a one-hot tile, block by block: for each block of 1024 nodes it runs over 196 blocks of 8192 edges of the
  zero-padded edge arrays, accumulating in the output block, which is written back after the last edge block; the
  first 100,000 rows are kept. The reference scatter-adds twice, once per endpoint array, onto a zero array, after
  wrapping a negative endpoint by the node count. The two agree where every endpoint word is non-negative (the
  precondition's two integer conjuncts): there the wrap does nothing, an endpoint at or beyond the node count is
  dropped by both, and the rest is that multiplication by non-negative coefficients distributes over the sum.
  No finiteness of the float inputs is used.

  The frames of the two kernel programs are the generated ones; the reference's frame is its generated run.
  The idealization rewrote nothing, so `preserves` is trivial.
-/
import proofs.«410101_j7971459302125_1_alg».proof.Defs
import proofs.«410101_j7971459302125_1_alg».proof.Proof.Gen.Kernel.Frame
import proofs.«410101_j7971459302125_1_alg».proof.Proof.Gen.KernelIdeal.Frame
import proofs.«410101_j7971459302125_1_alg».proof.Proof.Gen.ReferenceIdeal
import proofs.«410101_j7971459302125_1_alg».proof.Proof.Gen.ReferenceIdeal.Run
import proofs.«410101_j7971459302125_1_alg».proof.Proof.Gen.ReferenceIdeal.Read
import proofs.«410101_j7971459302125_1_alg».proof.Proof.Gen.Pre_finite_inputs
import proofs.«410101_j7971459302125_1_alg».proof.Proof.KernelRun
import proofs.«410101_j7971459302125_1_alg».proof.Proof.RefValue
import proofs.«410101_j7971459302125_1_alg».proof.Proof.PreDecode
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- At the ideal instance the kernel's result array ends at the scatter function of its arguments, and the
    reference's, from arguments that agree and endpoint words the precondition makes non-negative, at the same. -/
theorem algebraic : Cert.algebraic_KernelIdeal_ReferenceIdeal := by
  intro m ρ m' ρ' hpre hagree
  refine ⟨fun c => Cert.EdgeScatter.scat (Cert.KernelIdeal.KernelRun.X m c) (Cert.KernelIdeal.KernelRun.SW m c)
    (Cert.KernelIdeal.KernelRun.SRC m c) (Cert.KernelIdeal.KernelRun.DST m c), Cert.KernelIdeal.KernelRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v17_eq, (hagree c).1, (hagree c).2.1, (hagree c).2.2.2.1, (hagree c).2.2.2.2]
  obtain ⟨hs, hd⟩ := Cert.Pre_finite_inputs.Decode.endpoints_nonneg _ _ _ _ _ (hpre c)
  exact Cert.ReferenceIdeal.RefValue.ref_eq _ _ _ _ hs hd

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
